-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x1 : Shape := ⟨2, ![8192, 1]⟩
abbrev S4096x14336 : Shape := ⟨2, ![4096, 14336]⟩
abbrev S14336x4096 : Shape := ⟨2, ![14336, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1 : S_.BroadcastsInDim S8192x1 (![] : Fin 0 → Fin S8192x1.rank)
  reducesTo_S8192x1_S_d0_1 : S8192x1.ReducesTo [0, 1] S_
  bcast_S_S4096x14336 : S_.BroadcastsInDim S4096x14336 (![] : Fin 0 → Fin S4096x14336.rank)
  reducesTo_S4096x14336_S_d0_1 : S4096x14336.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_arg4 : FVec F S14336x4096 .f32) (main_v13 : IVec S_ 1) (main_v16 : IVec S4096x14336 1) : IVec S_ 1 :=
  let main_c_5 : IVec S_ 1 := constantI S_ 1 1#1
  let main_v17 : IVec S_ 1 := (fun x v => Host.reduce IntOp.andi x v reducesTo_S4096x14336_S_d0_1 h_S_) main_v16 main_c_5
  let main_v18 : IVec S_ 1 := andi main_v13 main_v17
  let main_v19 : FVec F S14336x4096 .f32 := Host.absf main_arg4
  let main_cst_6 : FVec F S_ .f32 := constant S_ .f32 0x7F800000#32
  let main_v20 : FVec F S14336x4096 .f32 := broadcastInDim S14336x4096 ![] bcast_S_S14336x4096 main_cst_6
  let main_v21 : IVec S14336x4096 1 := cmpf .olt main_v19 main_v20
  let main_c_7 : IVec S_ 1 := constantI S_ 1 1#1
  let main_v22 : IVec S_ 1 := (fun x v => Host.reduce IntOp.andi x v reducesTo_S14336x4096_S_d0_1 h_S_) main_v21 main_c_7
  let main_v23 : IVec S_ 1 := andi main_v18 main_v22
  main_v23

def fn {F : FTy → Type} [FloatOps F] (main_arg0 : FVec F S8192x4096 .f32) (main_arg1 : FVec F S8192x1 .f32) (main_arg2 : FVec F S4096x14336 .f32) (main_arg3 : FVec F S4096x14336 .f32) (main_arg4 : FVec F S14336x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S4096x14336 .f32 := Host.absf main_arg3
  let main_cst_4 : FVec F S_ .f32 := constant S_ .f32 0x7F800000#32
  let main_v15 : FVec F S4096x14336 .f32 := broadcastInDim S4096x14336 ![] bcast_S_S4096x14336 main_cst_4
  let main_v16 : IVec S4096x14336 1 := cmpf .olt main_v14 main_v15
  fn_part1 (F := F) main_arg4 main_v13 main_v16
-- ==== Kernel.lean ====
abbrev S8192x4096 : Shape := ⟨2, ![8192, 4096]⟩
abbrev S8192x1 : Shape := ⟨2, ![8192, 1]⟩
abbrev S4096x14336 : Shape := ⟨2, ![4096, 14336]⟩
abbrev S14336x4096 : Shape := ⟨2, ![14336, 4096]⟩
abbrev S512x4096 : Shape := ⟨2, ![512, 4096]⟩
abbrev S512x1 : Shape := ⟨2, ![512, 1]⟩
abbrev S4096x256 : Shape := ⟨2, ![4096, 256]⟩
abbrev S256x4096 : Shape := ⟨2, ![256, 4096]⟩
abbrev S512x256 : Shape := ⟨2, ![512, 256]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S4096x14336, .f32⟩
  | .hbm, ⟨3, _⟩ => ⟨S4096x14336, .f32⟩
  | .hbm, ⟨4, _⟩ => ⟨S14336x4096, .f32⟩
  | .hbm, ⟨5, _⟩ => ⟨S8192x4096, .bf16⟩
  | .hbm, ⟨6, _⟩ => ⟨S4096x14336, .bf16⟩
  | .hbm, ⟨7, _⟩ => ⟨S4096x14336, .bf16⟩
  | .hbm, ⟨8, _⟩ => ⟨S14336x4096, .bf16⟩
  | .hbm, ⟨9, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S512x1, .f32⟩
  | .local _ .vmem, ⟨3, _⟩ => ⟨S512x1, .f32⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S256x4096, .bf16⟩
  | .local _ .vmem, ⟨9, _⟩ => ⟨S256x4096, .bf16⟩
  | .local _ .vmem, ⟨10, _⟩ => ⟨S512x4096, .f32⟩
  | .local _ .vmem, ⟨11, _⟩ => ⟨S512x4096, .f32⟩
  | .local _ .vmem, ⟨12, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 56], ![false, false]⟩

def k0_cond2 (i : grid0.Coords) : BitVec 1 :=
  let arg1 : BitVec 32 := BitVec.ofNat 32 (i 1).val
  let c55_i32 : BitVec 32 := 55#32
  let v23 : BitVec 1 := Scalar.cmpi .eq arg1 c55_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512x1_S512x1_0_0 : ∀ a, (![0, 0] : Fin 2 → Nat) a + S512x1.size a ≤ S512x1.size a
  h_S512x1 : 0 < S512x1.numel
  broadcasts_S512x1_S512x4096 : S512x1.Broadcasts S512x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x14336.size a
  hwx0_2 : ∀ i : grid0.Coords, EltTy.bits .bf16 = 32 ∨ (Rect.block (s := S4096x14336) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x14336.size a
  hwx0_3 : ∀ i : grid0.Coords, EltTy.bits .bf16 = 32 ∨ (Rect.block (s := S4096x14336) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S14336x4096.size a
  hwx0_4 : ∀ i : grid0.Coords, EltTy.bits .bf16 = 32 ∨ (Rect.block (s := S14336x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S8192x4096.size a
  hwx0_5 : ∀ i : grid0.Coords, EltTy.bits .f32 = 32 ∨ (Rect.block (s := S8192x4096) S512x4096.size (cc0_transform_5 i) (hinb0_5 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x1 : Shape := ⟨2, ![8192, 1]⟩
abbrev S4096x14336 : Shape := ⟨2, ![4096, 14336]⟩
abbrev S14336x4096 : Shape := ⟨2, ![14336, 4096]⟩
abbrev S8192x14336 : Shape := ⟨2, ![8192, 14336]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1, .f32⟩
  | .hbm, ⟨2, _⟩ => ⟨S4096x14336, .f32⟩
  | .hbm, ⟨3, _⟩ => ⟨S4096x14336, .f32⟩
  | .hbm, ⟨4, _⟩ => ⟨S14336x4096, .f32⟩
  | .hbm, ⟨5, _⟩ => ⟨S8192x14336, .f32⟩
  | .hbm, ⟨6, _⟩ => ⟨S8192x14336, .f32⟩
  | .hbm, ⟨7, _⟩ => ⟨S8192x14336, .f32⟩
  | .hbm, ⟨8, _⟩ => ⟨S8192x14336, .f32⟩
  | .hbm, ⟨9, _⟩ => ⟨S_, .f32⟩
  | .hbm, ⟨10, _⟩ => ⟨S8192x14336, .f32⟩
  | .hbm, ⟨11, _⟩ => ⟨S8192x14336, .f32⟩
  | .hbm, ⟨12, _⟩ => ⟨S_, .f32⟩
  | .hbm, ⟨13, _⟩ => ⟨S8192x14336, .f32⟩
  | .hbm, ⟨14, _⟩ => ⟨S8192x14336, .f32⟩
  | .hbm, ⟨15, _⟩ => ⟨S8192x14336, .f32⟩
  | .hbm, ⟨16, _⟩ => ⟨S8192x14336, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  bcast_S_S8192x14336 : S_.BroadcastsInDim S8192x14336 (![] : Fin 0 → Fin S8192x14336.rank)
  bcast_S8192x1_S8192x4096_0_1 : S8192x1.BroadcastsInDim S8192x4096 (![0, 1] : Fin 2 → Fin S8192x4096.rank)
  dot_S8192x4096_S4096x14336_S8192x14336_1_0_0_1_n_n_wf : DotDims.WF S8192x4096 S4096x14336 S8192x14336 [1] [0] [0] [1] [] []
  dot_S8192x14336_S14336x4096_S8192x4096_1_0_0_1_n_n_wf : DotDims.WF S8192x14336 S14336x4096 S8192x4096 [1] [0] [0] [1] [] []

variable [Facts₀]

def dot_S8192x4096_S4096x14336_S8192x14336_1_0_0_1_n_n : DotDims S8192x4096 S4096x14336 S8192x14336 where
  lhsContracting := [1]
  rhsContracting := [0]
  lhsNonContracting := [0]
  rhsNonContracting := [1]
  lhsBatch := []
  rhsBatch := []
  wf := dot_S8192x4096_S4096x14336_S8192x14336_1_0_0_1_n_n_wf
def dot_S8192x14336_S14336x4096_S8192x4096_1_0_0_1_n_n : DotDims S8192x14336 S14336x4096 S8192x4096 where
  lhsContracting := [1]
  rhsContracting := [0]
  lhsNonContracting := [0]
  rhsNonContracting := [1]
  lhsBatch := []
  rhsBatch := []
  wf := dot_S8192x14336_S14336x4096_S8192x4096_1_0_0_1_n_n_wf

class Facts : Prop extends Facts₀ where

variable [Facts]
-- ==== Proof.Pieces.lean ====
/-
  What one grid step leaves behind, as values. The accumulator tile (a scratch carried from step to step) ends a step at
  the step's update `acc + h·Wd` of what it held, where at the first step of a row tile "what it held" is the zero tile
  the step has just stored; the output tile, written only at the last step of a row tile, is the routing column times
  the accumulator as that step leaves it. Each is one covering store whose payload reads whole buffers, so the pieces
  the run found read back as the payload itself.
-/
import proofs.«128364_j23072564314325_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A step that is neither first nor last of its row tile: the accumulator ends at the update of what it held. -/
theorem scratch_B (c : Dev nD) (i : grid0.Coords) (arg2 : Memref sig .tc .vmem S512x4096 .bf16) (harg2 : arg2.IsWhole) (arg3 : Memref sig .tc .vmem S512x1 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x4096 .f32) (harg8 : arg8.IsWhole) (hc0 : ¬cond0_0 i) (hc1 : ¬cond0_1 i)
    (x0 : Vec F S512x4096 .bf16) (x1 : Vec F S512x1 .f32) (x2 : Vec F S4096x256 .bf16) (x3 : Vec F S4096x256 .bf16) (x4 : Vec F S256x4096 .bf16) (xs0 : Vec F S512x4096 .f32) :
    sout0_B_0 c i arg2 harg2 arg3 harg3 arg4 harg4 arg5 harg5 arg6 harg6 arg7 harg7 arg8 harg8 hc0 hc1 x0 x1 x2 x3 x4 xs0 = k0_pay2 x0 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread,
    harg8.read_unread, View.readCov_unit_zero (S := S512x4096) _ hz, View.ld_unit_zero (S := S512x4096) hz,
    View.ld_unit_zero (S := S512x1) hz, View.ld_unit_zero (S := S4096x256) hz, View.ld_unit_zero (S := S256x4096) hz]

/-- The first step of a row tile: the zero tile is stored, read back, and updated. -/
theorem scratch_A (c : Dev nD) (i : grid0.Coords) (arg2 : Memref sig .tc .vmem S512x4096 .bf16) (harg2 : arg2.IsWhole) (arg3 : Memref sig .tc .vmem S512x1 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x4096 .f32) (harg8 : arg8.IsWhole) (hc0 : cond0_0 i) (hc1 : ¬cond0_1 i)
    (x0 : Vec F S512x4096 .bf16) (x1 : Vec F S512x1 .f32) (x2 : Vec F S4096x256 .bf16) (x3 : Vec F S4096x256 .bf16) (x4 : Vec F S256x4096 .bf16) :
    sout0_A_0 c i arg2 harg2 arg3 harg3 arg4 harg4 arg5 harg5 arg6 harg6 arg7 harg7 arg8 harg8 hc0 hc1 x0 x1 x2 x3 x4 = k0_pay2 x0 x2 x3 x4 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x4096) hz, View.readCov_unit_zero (S := S512x4096) _ hz]
  simp only [View.readAt_eq_ld, harg2.read_unread, harg3.read_unread, harg4.read_unread, harg5.read_unread, harg6.read_unread,
    harg8.read_unread, View.readCov_unit_zero (S := S512x4096) _ hz, View.ld_unit_zero (S := S512x4096) hz,
    View.ld_unit_zero (S := S512x1) hz, View.ld_unit_zero (S := S4096x256) hz, View.ld_unit_zero (S := S256x4096) hz]

/-- The last step of a row tile updates the accumulator like any other, -/
theorem scratch_C (c : Dev nD) (i : grid0.Coords) (arg2 : Memref sig .tc .vmem S512x4096 .bf16) (harg2 : arg2.IsWhole) (arg3 : Memref sig .tc .vmem S512x1 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x4096 .f32) (harg8 : arg8.IsWhole) (hc0 : ¬cond0_0 i) (hc1 : cond0_1 i)
    (x0 : Vec F S512x4096 .bf16) (x1 : Vec F S512x1 .f32) (x2 : Vec F S4096x256 .bf16) (x3 : Vec F S4096x256 .bf16) (x4 : Vec F S256x4096 .bf16) (xs0 : Vec F S512x4096 .f32) :
    sout0_C_0 c i arg2 harg2 arg3 harg3 arg4 harg4 arg5 harg5 arg6 harg6 arg7 harg7 arg8 harg8 hc0 hc1 x0 x1 x2 x3 x4 xs0 = k0_pay2 x0 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread,
    harg8.read_unread, View.readCov_unit_zero (S := S512x4096) _ hz, View.ld_unit_zero (S := S512x4096) hz,
    View.ld_unit_zero (S := S512x1) hz, View.ld_unit_zero (S := S4096x256) hz, View.ld_unit_zero (S := S256x4096) hz]

/-- and stores the routing column times the updated accumulator as the output tile. -/
theorem out_C (c : Dev nD) (i : grid0.Coords) (arg2 : Memref sig .tc .vmem S512x4096 .bf16) (harg2 : arg2.IsWhole) (arg3 : Memref sig .tc .vmem S512x1 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S512x4096 .f32) (harg7 : arg7.IsWhole) (arg8 : Memref sig .tc .vmem S512x4096 .f32) (harg8 : arg8.IsWhole) (hc0 : ¬cond0_0 i) (hc1 : cond0_1 i)
    (x0 : Vec F S512x4096 .bf16) (x1 : Vec F S512x1 .f32) (x2 : Vec F S4096x256 .bf16) (x3 : Vec F S4096x256 .bf16) (x4 : Vec F S256x4096 .bf16) (xs0 : Vec F S512x4096 .f32) :
    out0_C_5 c i arg2 harg2 arg3 harg3 arg4 harg4 arg5 harg5 arg6 harg6 arg7 harg7 arg8 harg8 hc0 hc1 x0 x1 x2 x3 x4 xs0 = k0_pay3 x1 (k0_pay2 x0 x2 x3 x4 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread,
    harg8.read_unread, View.readCov_unit_zero (S := S512x4096) _ hz, View.ld_unit_zero (S := S512x4096) hz,
    View.ld_unit_zero (S := S512x1) hz, View.ld_unit_zero (S := S4096x256) hz, View.ld_unit_zero (S := S256x4096) hz]

end Cert.KernelIdeal.Pieces

end
-- ==== Proof.Spec.lean ====
/-
  The mathematics of the gated feed-forward layer, stated once over the whole argument arrays and free of either
  program: for a token row `t` and a hidden column `f` the two projections are the inner products
  `g = Σ_d x[t,d]·Wg[d,f]` and `u = Σ_d x[t,d]·Wu[d,f]`, the hidden activation is `(g · σ(g)) · u` with
  `σ(g) = 1 / (1 + e^(-g))`, and the result at `(t, e)` is the routing weight of the row times
  `Σ_f hidden[t,f] · Wd[f,e]`, the sum over all 14336 hidden columns. The kernel adds that sum up in 56 consecutive
  runs of 256 columns; on the extended reals addition is commutative and associative, so the two groupings are one
  sum (`sum_runs`), with no finiteness needed.
-/
import Idealize.ShloMosaic.PureOps.Ideal
import Idealize.ShloMosaic.PureOps.Ideal.Laws
import Idealize.ShloMosaic.Lib.ValueIdx

noncomputable section

open scoped BigOperators

namespace Cert.GatedMlp

open Idealize.ShloMosaic Idealize.ShloMosaic.ValueIdx

/-- The activations `x` [8192, 4096]. -/
abbrev Acts := (⟨2, ![8192, 4096]⟩ : Shape).Idx → EReal
/-- The per-row routing weights [8192, 1]. -/
abbrev Route := (⟨2, ![8192, 1]⟩ : Shape).Idx → EReal
/-- An up-projection matrix [4096, 14336]. -/
abbrev UpMat := (⟨2, ![4096, 14336]⟩ : Shape).Idx → EReal
/-- The down-projection matrix [14336, 4096]. -/
abbrev DownMat := (⟨2, ![14336, 4096]⟩ : Shape).Idx → EReal

/-- One entry of `x · W`: the inner product of row `t` of `x` with column `f` of `W`. -/
def proj (X : Acts) (W : UpMat) (t : Fin 8192) (f : Fin 14336) : EReal :=
  ∑ d : Fin 4096, X (ix2 t d) * W (ix2 d f)

/-- The gated activation of a gate value `g` and an up value `u`: `(g · σ(g)) · u`. -/
def gated (g u : EReal) : EReal := g * Ideal.logistic g * u

/-- The hidden layer at row `t`, column `f`. -/
def hidden (X : Acts) (Wg Wu : UpMat) (t : Fin 8192) (f : Fin 14336) : EReal :=
  gated (proj X Wg t f) (proj X Wu t f)

/-- The layer's result at `(t, e)`: the row's routing weight times `Σ_f hidden[t,f] · Wd[f,e]`. -/
def result (X : Acts) (R : Route) (Wg Wu : UpMat) (Wd : DownMat) : (⟨2, ![8192, 4096]⟩ : Shape).Idx → EReal :=
  fun i => R (ix2 (i 0) 0) * ∑ f : Fin 14336, hidden X Wg Wu (i 0) f * Wd (ix2 f (i 1))

/-- A sum over `a · b` consecutive terms is the sum over `a` consecutive runs of `b` terms each. -/
theorem sum_runs {M : Type*} [AddCommMonoid M] (a b : ℕ) (G : ℕ → M) :
    ∑ f : Fin (a * b), G f.val = ∑ s ∈ Finset.range a, ∑ k : Fin b, G (b * s + k.val) := by
  rw [Finset.sum_range, ← Equiv.sum_comp finProdFinEquiv (fun f : Fin (a * b) => G f.val), Fintype.sum_prod_type]
  refine Finset.sum_congr rfl fun s _ => Finset.sum_congr rfl fun k _ => ?_
  show G (k.val + b * s.val) = _
  rw [Nat.add_comm]

/-- The same for terms indexed by `Fin (a · b)`: term `b·s + k` of run `s`. -/
theorem sum_runs_fin {M : Type*} [AddCommMonoid M] (a b : ℕ) (hab : 0 < a * b) (T : Fin (a * b) → M) :
    ∑ f, T f = ∑ s ∈ Finset.range a, ∑ k : Fin b, T ⟨(b * s + k.val) % (a * b), Nat.mod_lt _ hab⟩ := by
  rw [← sum_runs a b (fun n => T ⟨n % (a * b), Nat.mod_lt _ hab⟩)]
  refine Finset.sum_congr rfl fun f _ => congrArg T (Fin.ext ?_)
  exact (Nat.mod_eq_of_lt f.isLt).symm

/-- The 14336 hidden columns as 56 runs of 256. -/
theorem sum_hidden_runs {M : Type*} [AddCommMonoid M] (T : Fin 14336 → M) :
    ∑ f, T f = ∑ s ∈ Finset.range 56, ∑ k : Fin 256, T ⟨(256 * s + k.val) % 14336, Nat.mod_lt _ (by decide)⟩ :=
  sum_runs_fin 56 256 (by decide) T

end Cert.GatedMlp

end
-- ==== Proof.Step.lean ====
/-
  One grid step's arithmetic, read at one entry of the tile over the extended reals. With `x` the step's 512 rows of
  activations, `wg`, `wu` its 256 columns of the two up-projections and `wd` its 256 rows of the down-projection, the
  accumulator's update at `(r, e)` is `acc[r,e] + Σ_k ((g·σ(g))·u)[r,k] · wd[k,e]` with `g = Σ_d x[r,d]·wg[d,k]` and
  `u = Σ_d x[r,d]·wu[d,k]`: each matrix product starts from the zero tile, so it is the plain sum over its contracted
  axis; a change of float format is the identity; the zero tile reads zero; and the output tile is the routing weight
  of the row times the accumulator.
-/
import proofs.«128364_j23072564314325_1_alg».proof.Proof.Gen.KernelIdeal.Skeleton
import proofs.«128364_j23072564314325_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Step

open Cert.KernelIdeal Cert.KernelIdeal.Gen Idealize.ShloMosaic Idealize.ShloMosaic.TcCoe Idealize.ShloMosaic.ValueIdx

/-! ## The up-projections' product [512,4096] × [4096,256] at an entry -/

theorem lhs_up_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_up_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_up_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_up_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- Row `r` of `x` against column `k` of `w`. -/
theorem up_apply (x : FVec Ideal S512x4096 .bf16) (w : FVec Ideal S4096x256 .bf16) (r : Fin 512) (k : Fin 256) :
    matmul dot_S512x4096_S4096x256_S512x256_1_0_0_1_n_n none x w (constant S512x256 .f32 0x00000000#32) (ix2 r k)
      = ∑ d : Fin 4096, x (ix2 r d) * w (ix2 d k) := by
  simp only [matmul]
  rw [Ideal.matmul_constant_zero_apply, ← Equiv.sum_comp (contrEquiv1 dot_S512x4096_S4096x256_S512x256_1_0_0_1_n_n 4096 rfl rfl).symm]
  refine Finset.sum_congr rfl fun d _ => ?_
  have hk := contrEquiv1_symm_val dot_S512x4096_S4096x256_S512x256_1_0_0_1_n_n 4096 rfl rfl d
  have el : dot_S512x4096_S4096x256_S512x256_1_0_0_1_n_n.lhsIdx (ix2 r k) ((contrEquiv1 dot_S512x4096_S4096x256_S512x256_1_0_0_1_n_n 4096 rfl rfl).symm d) = ix2 r d := funext fun a => Fin.ext (by
    match a with
    | ⟨0, _⟩ => exact lhs_up_0 _ _
    | ⟨1, _⟩ => exact (lhs_up_1 _ _).trans hk)
  have er : dot_S512x4096_S4096x256_S512x256_1_0_0_1_n_n.rhsIdx (ix2 r k) ((contrEquiv1 dot_S512x4096_S4096x256_S512x256_1_0_0_1_n_n 4096 rfl rfl).symm d) = ix2 d k := funext fun a => Fin.ext (by
    match a with
    | ⟨0, _⟩ => exact (rhs_up_0 _ _).trans hk
    | ⟨1, _⟩ => exact rhs_up_1 _ _)
  rw [el, er]

/-! ## The down-projection's product [512,256] × [256,4096] at an entry -/

theorem lhs_down_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
theorem lhs_down_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
theorem rhs_down_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
theorem rhs_down_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- Row `r` of `h` against column `e` of `w`. -/
theorem down_apply (h : FVec Ideal S512x256 .bf16) (w : FVec Ideal S256x4096 .bf16) (r : Fin 512) (e : Fin 4096) :
    matmul dot_S512x256_S256x4096_S512x4096_1_0_0_1_n_n none h w (constant S512x4096 .f32 0x00000000#32) (ix2 r e)
      = ∑ k : Fin 256, h (ix2 r k) * w (ix2 k e) := by
  simp only [matmul]
  rw [Ideal.matmul_constant_zero_apply, ← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 r e) ((contrEquiv1 dot_S512x256_S256x4096_S512x4096_1_0_0_1_n_n 256 rfl rfl).symm k) = ix2 r k := funext fun a => Fin.ext (by
    match a with
    | ⟨0, _⟩ => exact lhs_down_0 _ _
    | ⟨1, _⟩ => exact (lhs_down_1 _ _).trans hk)
  have er : dot_S512x256_S256x4096_S512x4096_1_0_0_1_n_n.rhsIdx (ix2 r e) ((contrEquiv1 dot_S512x256_S256x4096_S512x4096_1_0_0_1_n_n 256 rfl rfl).symm k) = ix2 k e := funext fun a => Fin.ext (by
    match a with
    | ⟨0, _⟩ => exact (rhs_down_0 _ _).trans hk
    | ⟨1, _⟩ => exact rhs_down_1 _ _)
  rw [el, er]

/-! ## The three payloads at an entry -/

/-- The logistic function of a tile, at an entry. -/
theorem logistic_apply {s : Shape} {φ : FTy} (v : FVec Ideal s φ) (i : s.Idx) : logistic v i = Ideal.logistic (v i) := rfl

/-- The reset stores the zero tile. -/
theorem zero_apply (r : Fin 512) (e : Fin 4096) : k0_pay1 (F := Ideal) (ix2 r e) = 0 := by
  unfold k0_pay1
  simp only [shapeCast_self]
  show Ideal.ofBits .f32 0x00000000#32 = 0
  exact Ideal.ofBits_zero_f32

/-- The accumulator's update at `(r, e)`. -/
theorem update_apply (x : Vec Ideal S512x4096 .bf16) (wg wu : Vec Ideal S4096x256 .bf16) (wd : Vec Ideal S256x4096 .bf16)
    (acc : Vec Ideal S512x4096 .f32) (r : Fin 512) (e : Fin 4096) :
    k0_pay2 x wg wu wd acc (ix2 r e)
      = acc (ix2 r e) + ∑ k : Fin 256, Cert.GatedMlp.gated (∑ d : Fin 4096, x (ix2 r d) * wg (ix2 d k))
          (∑ d : Fin 4096, x (ix2 r d) * wu (ix2 d k)) * wd (ix2 k e) := by
  unfold k0_pay2
  simp only [shapeCast_self]
  rw [addf_apply, down_apply]
  refine congrArg (acc (ix2 r e) + ·) (Finset.sum_congr rfl fun k _ => ?_)
  rw [truncf_apply, mulf_apply, mulf_apply, logistic_apply, up_apply, up_apply]
  rfl

/-- The output tile at `(r, e)`: the row's routing weight times the accumulator. -/
theorem scaled_apply (rt : Vec Ideal S512x1 .f32) (acc : Vec Ideal S512x4096 .f32) (r : Fin 512) (e : Fin 4096) :
    k0_pay3 rt acc (ix2 r e) = rt (ix2 r 0) * acc (ix2 r e) := by
  unfold k0_pay3
  rw [mulf_apply, broadcastTo_apply rt broadcasts_S512x1_S512x4096 (ix2 r e) (ix2 r 0) (fun a => by
    match a with
    | ⟨0, _⟩ => show r.val = if (512 : Nat) = 1 then 0 else r.val; rw [if_neg (by decide)]
    | ⟨1, _⟩ => show 0 = if (1 : Nat) = 1 then 0 else e.val; rw [if_pos rfl])]

end Cert.KernelIdeal.Step

end
-- ==== Proof.Blocks.lean ====
/-
  The tiles a grid step works on, read off the argument arrays. Step `t` of the 16 × 56 grid is row tile `t / 56`
  and column run `t % 56`: it sees rows `512·(t/56) …` of the activations and of the routing column, columns
  `256·(t%56) …` of the two up-projections and rows `256·(t%56) …` of the down-projection. The arrays the region
  finds are the host's narrowed copies of the arguments, and over the extended reals narrowing is the identity.
-/
import proofs.«128364_j23072564314325_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The five argument arrays as launched, as plain functions to the extended reals. -/
abbrev argX (c : Dev nD) : S8192x4096.Idx → EReal := m ((c : Thread nD τ).loc main_arg0)
abbrev argR (c : Dev nD) : S8192x1.Idx → EReal := m ((c : Thread nD τ).loc main_arg1)
abbrev argWg (c : Dev nD) : S4096x14336.Idx → EReal := m ((c : Thread nD τ).loc main_arg2)
abbrev argWu (c : Dev nD) : S4096x14336.Idx → EReal := m ((c : Thread nD τ).loc main_arg3)
abbrev argWd (c : Dev nD) : S14336x4096.Idx → EReal := m ((c : Thread nD τ).loc main_arg4)

/-- The step's tiles, each at its literal type. -/
abbrev xblk (c : Dev nD) (t : Fin cfg0.N) : Vec Ideal S512x4096 .bf16 := iblk m c 0 t
abbrev rblk (c : Dev nD) (t : Fin cfg0.N) : Vec Ideal S512x1 .f32 := iblk m c 1 t
abbrev gblk (c : Dev nD) (t : Fin cfg0.N) : Vec Ideal S4096x256 .bf16 := iblk m c 2 t
abbrev ublk (c : Dev nD) (t : Fin cfg0.N) : Vec Ideal S4096x256 .bf16 := iblk m c 3 t
abbrev dblk (c : Dev nD) (t : Fin cfg0.N) : Vec Ideal S256x4096 .bf16 := iblk m c 4 t

/-- The narrowed copies are the arguments. -/
theorem V_x (c : Dev nD) (i : S8192x4096.Idx) : (V m c main_v0 i : EReal) = argX m c i := by
  have e : @Eq (S8192x4096.Idx → EReal) (V m c main_v0) (truncf (F := Ideal) (s := S8192x4096) (φ := .f32) .bf16 (argX m c) bitsLt_bf16_f32) := by
    dsimp only [V, hostOps0]; after_results
  rw [e]; rfl
theorem V_wg (c : Dev nD) (i : S4096x14336.Idx) : (V m c main_v1 i : EReal) = argWg m c i := by
  have e : @Eq (S4096x14336.Idx → EReal) (V m c main_v1) (truncf (F := Ideal) (s := S4096x14336) (φ := .f32) .bf16 (argWg m c) bitsLt_bf16_f32) := by
    dsimp only [V, hostOps0]; after_results
  rw [e]; rfl
theorem V_wu (c : Dev nD) (i : S4096x14336.Idx) : (V m c main_v2 i : EReal) = argWu m c i := by
  have e : @Eq (S4096x14336.Idx → EReal) (V m c main_v2) (truncf (F := Ideal) (s := S4096x14336) (φ := .f32) .bf16 (argWu m c) bitsLt_bf16_f32) := by
    dsimp only [V, hostOps0]; after_results
  rw [e]; rfl
theorem V_wd (c : Dev nD) (i : S14336x4096.Idx) : (V m c main_v3 i : EReal) = argWd m c i := by
  have e : @Eq (S14336x4096.Idx → EReal) (V m c main_v3) (truncf (F := Ideal) (s := S14336x4096) (φ := .f32) .bf16 (argWd m c) bitsLt_bf16_f32) := by
    dsimp only [V, hostOps0]; after_results
  rw [e]; rfl

/-- The printed index maps at step `t`: row tile `t / 56`, column run `t % 56` — decided over the grid. -/
theorem idx_facts : ∀ t : Fin cfg0.N,
    win0_0.index t (0 : Fin 2) = t.val / 56 ∧ win0_0.index t (1 : Fin 2) = 0
    ∧ win0_1.index t (0 : Fin 2) = t.val / 56 ∧ win0_1.index t (1 : Fin 2) = 0
    ∧ win0_2.index t (0 : Fin 2) = 0 ∧ win0_2.index t (1 : Fin 2) = t.val % 56
    ∧ win0_3.index t (0 : Fin 2) = 0 ∧ win0_3.index t (1 : Fin 2) = t.val % 56
    ∧ win0_4.index t (0 : Fin 2) = t.val % 56 ∧ win0_4.index t (1 : Fin 2) = 0
    ∧ win0_5.index t (0 : Fin 2) = t.val / 56 ∧ win0_5.index t (1 : Fin 2) = 0 :=
  (by decide +kernel : ∀ t : Fin grid0.N, _)

/-- The activations' tile at `(r, d)`. -/
theorem xblk_apply (c : Dev nD) (t : Fin cfg0.N) (r : Fin 512) (d : Fin 4096) (row : Fin 8192)
    (hrow : row.val = 512 * (t.val / 56) + r.val) :
    xblk m c t (ix2 r d) = argX m c (ix2 row d) := by
  obtain ⟨e0, e1, -⟩ := idx_facts t
  show ((cfg0.win 0).blk t).view.read (Elt Ideal) (V m c (Pipeline.arrRef spec0 0)) (ix2 r d) = _
  rw [View.read_apply]
  refine (V_x m c _).trans (congrArg (argX m c) (funext fun a => Fin.ext ?_))
  match a with
  | ⟨0, _⟩ => show win0_0.index t (0 : Fin 2) * 512 + 1 * r.val = row.val; omega
  | ⟨1, _⟩ => show win0_0.index t (1 : Fin 2) * 4096 + 1 * d.val = d.val; omega

/-- The routing column's tile at `(r, 0)`. -/
theorem rblk_apply (c : Dev nD) (t : Fin cfg0.N) (r : Fin 512) (row : Fin 8192)
    (hrow : row.val = 512 * (t.val / 56) + r.val) :
    rblk m c t (ix2 r 0) = argR m c (ix2 row 0) := by
  obtain ⟨-, -, e0, e1, -⟩ := idx_facts t
  show ((cfg0.win 1).blk t).view.read (Elt Ideal) (V m c (Pipeline.arrRef spec0 1)) (ix2 r 0) = _
  rw [View.read_apply]
  refine (congrFun (V_main_arg1 m c) _).trans (congrArg (argR m c) (funext fun a => Fin.ext ?_))
  match a with
  | ⟨0, _⟩ => show win0_1.index t (0 : Fin 2) * 512 + 1 * r.val = row.val; omega
  | ⟨1, _⟩ => show win0_1.index t (1 : Fin 2) * 1 + 1 * 0 = 0; omega

/-- The gate projection's tile at `(d, k)`. -/
theorem gblk_apply (c : Dev nD) (t : Fin cfg0.N) (d : Fin 4096) (k : Fin 256) (col : Fin 14336)
    (hcol : col.val = 256 * (t.val % 56) + k.val) :
    gblk m c t (ix2 d k) = argWg m c (ix2 d col) := by
  obtain ⟨-, -, -, -, e0, e1, -⟩ := idx_facts t
  show ((cfg0.win 2).blk t).view.read (Elt Ideal) (V m c (Pipeline.arrRef spec0 2)) (ix2 d k) = _
  rw [View.read_apply]
  refine (V_wg m c _).trans (congrArg (argWg m c) (funext fun a => Fin.ext ?_))
  match a with
  | ⟨0, _⟩ => show win0_2.index t (0 : Fin 2) * 4096 + 1 * d.val = d.val; omega
  | ⟨1, _⟩ => show win0_2.index t (1 : Fin 2) * 256 + 1 * k.val = col.val; omega

/-- The up projection's tile at `(d, k)`. -/
theorem ublk_apply (c : Dev nD) (t : Fin cfg0.N) (d : Fin 4096) (k : Fin 256) (col : Fin 14336)
    (hcol : col.val = 256 * (t.val % 56) + k.val) :
    ublk m c t (ix2 d k) = argWu m c (ix2 d col) := by
  obtain ⟨-, -, -, -, -, -, e0, e1, -⟩ := idx_facts t
  show ((cfg0.win 3).blk t).view.read (Elt Ideal) (V m c (Pipeline.arrRef spec0 3)) (ix2 d k) = _
  rw [View.read_apply]
  refine (V_wu m c _).trans (congrArg (argWu m c) (funext fun a => Fin.ext ?_))
  match a with
  | ⟨0, _⟩ => show win0_3.index t (0 : Fin 2) * 4096 + 1 * d.val = d.val; omega
  | ⟨1, _⟩ => show win0_3.index t (1 : Fin 2) * 256 + 1 * k.val = col.val; omega

/-- The down projection's tile at `(k, e)`. -/
theorem dblk_apply (c : Dev nD) (t : Fin cfg0.N) (k : Fin 256) (e : Fin 4096) (col : Fin 14336)
    (hcol : col.val = 256 * (t.val % 56) + k.val) :
    dblk m c t (ix2 k e) = argWd m c (ix2 col e) := by
  obtain ⟨-, -, -, -, -, -, -, -, e0, e1, -⟩ := idx_facts t
  show ((cfg0.win 4).blk t).view.read (Elt Ideal) (V m c (Pipeline.arrRef spec0 4)) (ix2 k e) = _
  rw [View.read_apply]
  refine (V_wd m c _).trans (congrArg (argWd m c) (funext fun a => Fin.ext ?_))
  match a with
  | ⟨0, _⟩ => show win0_4.index t (0 : Fin 2) * 256 + 1 * k.val = col.val; omega
  | ⟨1, _⟩ => show win0_4.index t (1 : Fin 2) * 4096 + 1 * e.val = e.val; omega

end Cert.KernelIdeal.Blocks

end
-- ==== Proof.Fold.lean ====
/-
  The accumulator over one row tile's 56 steps. Step `n` adds to the accumulator entry `(r, e)` the partial sum
  `Σ_k hidden[row, 256·(n%56) + k] · Wd[256·(n%56) + k, e]` of the specification, `row = 512·(n/56) + r`; the first step
  of the tile starts from the zero tile. So after the tile's last step the accumulator holds the 56 partial sums added
  up from zero, and the output tile is the routing weight of the row times that.
-/
import proofs.«128364_j23072564314325_1_alg».proof.Proof.Gen.KernelIdeal.Value
import proofs.«128364_j23072564314325_1_alg».proof.Proof.Pieces
import proofs.«128364_j23072564314325_1_alg».proof.Proof.Step
import proofs.«128364_j23072564314325_1_alg».proof.Proof.Blocks

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- The array row that row `r` of step `n`'s tile is (wrapped past the grid, where it is never used). -/
def rowOf (n : ℕ) (r : Fin 512) : Fin 8192 := ⟨(512 * (n / 56) + r.val) % 8192, Nat.mod_lt _ (by decide)⟩
/-- The hidden column that column `k` of step `n`'s run is. -/
def colOf (n : ℕ) (k : Fin 256) : Fin 14336 :=
  ⟨256 * (n % 56) + k.val, by have := Nat.mod_lt n (show 0 < 56 by decide); have := k.isLt; omega⟩

/-- What step `n` adds to accumulator entry `(r, e)`. -/
def addend (c : Dev nD) (n : ℕ) (r : Fin 512) (e : Fin 4096) : EReal :=
  ∑ k : Fin 256, Cert.GatedMlp.hidden (argX m c) (argWg m c) (argWu m c) (rowOf n r) (colOf n k)
    * argWd m c (ix2 (colOf n k) e)

/-- A step's update of the accumulator, over the argument arrays. -/
theorem update_eq (c : Dev nD) (t : Fin cfg0.N) (acc : Vec Ideal S512x4096 .f32) (i : S512x4096.Idx) :
    k0_pay2 (xblk m c t) (gblk m c t) (ublk m c t) (dblk m c t) acc i = acc i + addend m c t.val (i 0) (i 1) := by
  obtain ⟨r, e, rfl⟩ : ∃ (r : Fin 512) (e : Fin 4096), i = ix2 r e := ⟨i 0, i 1, eq_ix2 i⟩
  have hN : t.val < 896 := lt_of_lt_of_eq t.isLt (show cfg0.N = 896 from N_0)
  have hrow : (rowOf t.val r).val = 512 * (t.val / 56) + r.val := by
    show (512 * (t.val / 56) + r.val) % 8192 = _
    have := r.isLt; omega
  refine (Step.update_apply (xblk m c t) (gblk m c t) (ublk m c t) (dblk m c t) acc r e).trans ?_
  refine congrArg (acc (ix2 r e) + ·) (Finset.sum_congr rfl fun k _ => ?_)
  unfold Cert.GatedMlp.hidden Cert.GatedMlp.proj
  simp only [fun d => xblk_apply m c t r d (rowOf t.val r) hrow, fun d => gblk_apply m c t d k (colOf t.val k) rfl,
    fun d => ublk_apply m c t d k (colOf t.val k) rfl, dblk_apply m c t k e (colOf t.val k) rfl]

/-- The first step of a row tile leaves the update of the zero tile, whatever the accumulator held. -/
theorem first_step (c : Dev nD) (n : ℕ) (hb : n < cfg0.N) (h0 : n % 56 = 0) (acc : Vec Ideal S512x4096 .f32) :
    Value.scAt0_0 m c n hb acc = k0_pay2 (xblk m c ⟨n, hb⟩) (gblk m c ⟨n, hb⟩) (ublk m c ⟨n, hb⟩) (dblk m c ⟨n, hb⟩) (k0_pay1 (F := Ideal)) := by
  have h1 : ¬n % 56 = 55 := by omega
  unfold Value.scAt0_0
  rw [dif_pos h0, dif_neg h1]
  exact Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- Every later step of the tile leaves the update of what the step before left. -/
theorem later_step (c : Dev nD) (n : ℕ) (hb : n < cfg0.N) (h0 : ¬n % 56 = 0) (acc : Vec Ideal S512x4096 .f32) :
    Value.scAt0_0 m c n hb acc = k0_pay2 (xblk m c ⟨n, hb⟩) (gblk m c ⟨n, hb⟩) (ublk m c ⟨n, hb⟩) (dblk m c ⟨n, hb⟩) acc := by
  unfold Value.scAt0_0
  rw [dif_neg h0]
  by_cases h1 : n % 56 = 55
  · rw [dif_pos h1]
    exact Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- The accumulator after step `j` of row tile `q`: the partial sums of steps `0 … j`, added up from zero. -/
theorem run_eq (c : Dev nD) (q j : ℕ) (hj : j ≤ 55) (h : 56 * q + j < cfg0.N) (i : S512x4096.Idx) :
    Pipeline.accAt (fun n h => Value.scAt0_0 m c n h (VS0_0.read (Elt Ideal) VS0_0.junk)) (Value.scAt0_0 m c) (56 * q) j h i
      = 0 + ∑ s ∈ Finset.range (j + 1), addend m c (56 * q + s) (i 0) (i 1) :=
  Pipeline.accAt_add_apply (fun n h => Value.scAt0_0 m c n h (VS0_0.read (Elt Ideal) VS0_0.junk)) (Value.scAt0_0 m c)
    (fun _ => (0 : EReal)) (fun n i => addend m c n (i 0) (i 1)) (56 * q) 55
    (fun hb i => by
      rw [first_step m c (56 * q) hb (Nat.mul_mod_right 56 q), update_eq m c ⟨56 * q, hb⟩]
      obtain ⟨r, e, rfl⟩ : ∃ (r : Fin 512) (e : Fin 4096), i = ix2 r e := ⟨i 0, i 1, eq_ix2 i⟩
      rw [Step.zero_apply])
    (fun n hb acc i hlt hle => by
      rw [later_step m c n hb (by omega), update_eq m c ⟨n, hb⟩])
    j hj h i

/-- After the last step of its row tile the accumulator holds all 56 partial sums. -/
theorem scratch_last (c : Dev nD) (t : Fin cfg0.N) (h55 : t.val % 56 = 55) (i : S512x4096.Idx) :
    (outsAt0 m c t.val t.isLt).2 i = 0 + ∑ s ∈ Finset.range 56, addend m c (56 * (t.val / 56) + s) (i 0) (i 1) := by
  rw [Value.soutsAt0_0_eq m c t]
  refine (run_eq m c (t.val / 56) (t.val % 56) (by omega) _ i).trans ?_
  rw [h55]

/-- At that step the output tile is the routing column times the accumulator as the step leaves it. -/
theorem out_last (c : Dev nD) (t : Fin cfg0.N) (h55 : t.val % 56 = 55) :
    (outsAt0 m c t.val t.isLt).1 = k0_pay3 (rblk m c t) (outsAt0 m c t.val t.isLt).2 := by
  have h0 : ¬t.val % 56 = 0 := by omega
  rw [outsAt0_C m c t h0 h55]
  dsimp only
  refine (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h55) (iblk m c 0 t) (iblk m c 1 t) (iblk m c 2 t) (iblk m c 3 t) (iblk m c 4 t) (outsAt0 m c (t.val - 1) (Nat.lt_of_le_of_lt (Nat.sub_le _ _) t.isLt)).2).trans ?_
  exact congrArg (k0_pay3 (rblk m c t)) (Pieces.scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h55) (iblk m c 0 t) (iblk m c 1 t) (iblk m c 2 t) (iblk m c 3 t) (iblk m c 4 t) (outsAt0 m c (t.val - 1) (Nat.lt_of_le_of_lt (Nat.sub_le _ _) t.isLt)).2).symm

end Cert.KernelIdeal.Fold

end
-- ==== Proof.Result.lean ====
/-
  The kernel's result array. The output window's tile is written back only at the last step of each row tile
  (steps `56·q + 55`), where it holds, at `(r, e)`, the routing weight of row `512·q + r` times the 56 partial sums
  added up from zero; regrouped, those are the one sum over all 14336 hidden columns, so the tile is the
  specification read through the tile's rectangle. The 16 row tiles cover the array, which therefore ends at the
  specification of the argument arrays.
-/
import proofs.«128364_j23072564314325_1_alg».proof.Proof.Fold

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Cert.KernelIdeal.Blocks
open Idealize.ShloMosaic.Pipeline (Dat)

variable (m : (ℓ : Loc nD τ sig) → Buf (Elt Ideal) ℓ) (ρ : Dev nD → PrngReg)

/-- The specification of the argument arrays as launched. -/
abbrev spec (c : Dev nD) : S8192x4096.Idx → EReal :=
  Cert.GatedMlp.result (argX m c) (argR m c) (argWg m c) (argWu m c) (argWd m c)

/-- The output tile after the last step of row tile `t / 56`, at `(r, e)`: the specification at `(512·(t/56) + r, e)`. -/
theorem tile_apply (c : Dev nD) (t : Fin cfg0.N) (h55 : t.val % 56 = 55) (r : Fin 512) (e : Fin 4096) (row : Fin 8192)
    (hrow : row.val = 512 * (t.val / 56) + r.val) :
    (outsAt0 m c t.val t.isLt).1 (ix2 r e) = spec m c (ix2 row e) := by
  have hN : t.val < 896 := lt_of_lt_of_eq t.isLt (show cfg0.N = 896 from N_0)
  have hr := r.isLt
  rw [Fold.out_last m c t h55]
  refine (Step.scaled_apply (rblk m c t) (outsAt0 m c t.val t.isLt).2 r e).trans ?_
  rw [Fold.scratch_last m c t h55, rblk_apply m c t r row hrow, zero_add]
  show argR m c (ix2 row 0) * _ = argR m c (ix2 row 0) * ∑ f : Fin 14336, _
  refine congrArg (argR m c (ix2 row 0) * ·) ?_
  rw [Cert.GatedMlp.sum_hidden_runs]
  refine Finset.sum_congr rfl fun s hs => Finset.sum_congr rfl fun k _ => ?_
  have hs' : s < 56 := Finset.mem_range.mp hs
  have hk := k.isLt
  have e1 : Fold.rowOf (56 * (t.val / 56) + s) r = row := Fin.ext (by
    show (512 * ((56 * (t.val / 56) + s) / 56) + r.val) % 8192 = row.val
    omega)
  have e2 : Fold.colOf (56 * (t.val / 56) + s) k = ⟨(256 * s + k.val) % 14336, Nat.mod_lt _ (by decide)⟩ := Fin.ext (by
    show 256 * ((56 * (t.val / 56) + s) % 56) + k.val = (256 * s + k.val) % 14336
    omega)
  rw [e1, e2]

/-- What a write-back of the output window writes is the specification read through the tile's rectangle. -/
theorem flushed_eq (c : Dev nD) (t : Fin cfg0.N) (hf : (cfg0.win 5).flush t = true) :
    (dats m 0 c).flushed 5 t = ((cfg0.win 5).blk t).view.read (Elt Ideal) (spec m c) := by
  have h55 : t.val % 56 = 55 := (flush0_5 t).mp hf
  have hN : t.val < 896 := lt_of_lt_of_eq t.isLt (show cfg0.N = 896 from N_0)
  obtain ⟨-, -, -, -, -, -, -, -, -, -, e0, e1⟩ := idx_facts t
  rw [Value.flushed5]
  funext j
  obtain ⟨r, e, rfl⟩ : ∃ (r : Fin 512) (e : Fin 4096), j = ix2 r e := ⟨j 0, j 1, eq_ix2 j⟩
  have hr := r.isLt
  have hi : ((cfg0.win 5).blk t).view.emb (ix2 r e) = ix2 (⟨512 * (t.val / 56) + r.val, by omega⟩ : Fin 8192) e :=
    funext fun a => Fin.ext (by
      match a with
      | ⟨0, _⟩ => show win0_5.index t (0 : Fin 2) * 512 + 1 * r.val = 512 * (t.val / 56) + r.val; omega
      | ⟨1, _⟩ => show win0_5.index t (1 : Fin 2) * 4096 + 1 * e.val = e.val; omega)
  show (outsAt0 m c t.val t.isLt).1 (ix2 r e) = spec m c (((cfg0.win 5).blk t).view.emb (ix2 r e))
  rw [hi]
  exact tile_apply m c t h55 r e _ rfl

/-- An entry of the array lies in the tile of step `t` iff its row lies in the tile's 512 rows. -/
theorem mem_tile (t : Fin cfg0.N) (i : S8192x4096.Idx) :
    i ∈ ((cfg0.win 5).blk t).view.set ↔ ∀ a : Fin 2, win0_5.index t a * S512x4096.size a ≤ (i a).val ∧ (i a).val < win0_5.index t a * S512x4096.size a + S512x4096.size a := by
  show i ∈ ((View.whole main_v4).slice (win0_5.rect t)).set ↔ _
  rw [View.set_slice_whole, Rect.mem_set_unit]
  exact Iff.rfl

/-- Every entry is written back by the last step of its row tile. -/
theorem cover (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 896 := N_0
  let t : Fin cfg0.N := ⟨56 * ((i 0).val / 512) + 55, by rw [hN]; omega⟩
  have ht : t.val = 56 * ((i 0).val / 512) + 55 := rfl
  obtain ⟨-, -, -, -, -, -, -, -, -, -, e0, e1⟩ := idx_facts t
  refine ⟨t, (flush0_5 t).mpr (by rw [ht]; omega), ?_⟩
  rw [mem_tile]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 4096 ≤ (i 1).val ∧ (i 1).val < win0_5.index t (1 : Fin 2) * 4096 + 4096; omega

/-- The result array after the run is the specification. -/
theorem final (c : Dev nD) : (dats m 0 c).arrAt 5 cfg0.N = spec m c :=
  (dats m 0 c).arrAt_eq_of_cover 5 (spec m c) (fun t hf => flushed_eq m c t hf) cover

/-- The run: the result array at the specification of the arguments, the arguments unchanged. -/
theorem run : θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefSide.lean ====
/-
  The reference program computes the layer's specification. Read one host operation at a time, its result at
  `(t, e)` is the routing weight of row `t` times `Σ_f h[t,f] · Wd[f,e]`, where `h = (g · (1 / (1 + e^(-g)))) · u`
  over the two inner products `g` and `u`: jax's expansion of the logistic function into negate, exponential, add and
  divide is the extended reals' `Ideal.logistic` by definition, and the constant `1.0` is the real one.
-/
import proofs.«128364_j23072564314325_1_alg».proof.Proof.Gen.ReferenceIdeal.Read
import proofs.«128364_j23072564314325_1_alg».proof.Proof.Spec
import Idealize.ShloMosaic.Lib.IdealHost

noncomputable section

open scoped BigOperators

namespace Cert.ReferenceIdeal.Spec

open Cert.ReferenceIdeal Cert.ReferenceIdeal.Read Idealize.ShloMosaic Idealize.ShloMosaic.ValueIdx

/-- The hidden layer as the reference computes it, at `(t, f)`: the specification's `hidden`. -/
theorem hidden_eq (x0 : (⟨S8192x4096, .f32⟩ : BufTy).Contents (Elt Ideal)) (x2 x3 : (⟨S4096x14336, .f32⟩ : BufTy).Contents (Elt Ideal))
    (t : Fin 8192) (f : Fin 14336) :
    val_main_v3 (F := Ideal) x0 x2 x3 (ix2 t f) = Cert.GatedMlp.hidden x0 x2 x3 t f := by
  have el : ∀ k : Fin 4096, lidx_main_v0 (ix2 t f) k = ix2 t k := fun k =>
    funext fun a => Fin.ext (by match a with | ⟨0, _⟩ => rfl | ⟨1, _⟩ => rfl)
  have er : ∀ k : Fin 4096, ridx_main_v0 (ix2 t f) k = ix2 k f := fun k =>
    funext fun a => Fin.ext (by match a with | ⟨0, _⟩ => rfl | ⟨1, _⟩ => rfl)
  have el' : ∀ k : Fin 4096, lidx_main_v1 (ix2 t f) k = ix2 t k := fun k =>
    funext fun a => Fin.ext (by match a with | ⟨0, _⟩ => rfl | ⟨1, _⟩ => rfl)
  have er' : ∀ k : Fin 4096, ridx_main_v1 (ix2 t f) k = ix2 k f := fun k =>
    funext fun a => Fin.ext (by match a with | ⟨0, _⟩ => rfl | ⟨1, _⟩ => rfl)
  rw [val_main_v3_apply, val_main_v2_apply, val_main_call0_v5_apply, val_main_call0_v4_apply, val_main_call0_cst_0_apply,
    val_main_call0_v3_apply, val_main_call0_v2_apply, val_main_call0_cst_apply, val_main_call0_v1_apply,
    val_main_call0_v0_apply, val_main_v0_apply, val_main_v1_apply]
  simp only [el, er, el', er', Ideal.mulf_def, Ideal.hostDivf_def, Ideal.addf_def, Ideal.hostUnary_exp_def,
    Ideal.hostNegf_def, Ideal.negf_def, Ideal.ofBits_def, Ideal.ofBits_one_f32]
  rfl

/-- The reference's result is the specification's, of the same five arrays. -/
theorem result_eq (x0 : (⟨S8192x4096, .f32⟩ : BufTy).Contents (Elt Ideal)) (x1 : (⟨S8192x1, .f32⟩ : BufTy).Contents (Elt Ideal))
    (x2 x3 : (⟨S4096x14336, .f32⟩ : BufTy).Contents (Elt Ideal)) (x4 : (⟨S14336x4096, .f32⟩ : BufTy).Contents (Elt Ideal)) :
    val_main_v6 (F := Ideal) x0 x1 x2 x3 x4 = Cert.GatedMlp.result x0 x1 x2 x3 x4 := by
  funext i
  have e5 : idx_main_v5 i = ix2 (i 0) 0 := funext fun a => Fin.ext (by match a with | ⟨0, _⟩ => rfl | ⟨1, _⟩ => rfl)
  have el : ∀ k : Fin 14336, lidx_main_v4 i k = ix2 (i 0) k := fun k =>
    funext fun a => Fin.ext (by match a with | ⟨0, _⟩ => rfl | ⟨1, _⟩ => rfl)
  have er : ∀ k : Fin 14336, ridx_main_v4 i k = ix2 k (i 1) := fun k =>
    funext fun a => Fin.ext (by match a with | ⟨0, _⟩ => rfl | ⟨1, _⟩ => rfl)
  rw [val_main_v6_apply, val_main_v5_apply, val_main_v4_apply]
  simp only [e5, el, er, Ideal.mulf_def]
  unfold Cert.GatedMlp.result
  refine congrArg (fun s => x1 (ix2 (i 0) 0) * s) (Finset.sum_congr rfl fun k _ => ?_)
  exact congrArg (fun h => h * x4 (ix2 k (i 1))) (hidden_eq x0 x2 x3 (i 0) k)

end Cert.ReferenceIdeal.Spec

end
-- ==== Proof.lean ====
/-
  The gated feed-forward layer `route · ((x·Wg · σ(x·Wg)) · (x·Wu)) · Wd` as a tiled kernel against its plain
  reference, over the extended reals. The kernel walks a 16 × 56 grid: for each tile of 512 rows it adds up, in an
  accumulator tile, the contributions of 56 runs of 256 hidden columns, and scales by the routing weight once at the
  end; the reference forms the whole products. Both end at one function of the five argument arrays
  (`Cert.GatedMlp.result`): the kernel because addition of extended reals is commutative and associative, so 56
  partial sums from zero are the one sum over 14336 columns; the reference because its spelled-out logistic function is
  the extended reals' own. No finiteness of the inputs is used. The three frames are the generated runs; the
  idealization rewrote nothing.
-/
import proofs.«128364_j23072564314325_1_alg».proof.Defs
import proofs.«128364_j23072564314325_1_alg».proof.Proof.Gen.Kernel
import proofs.«128364_j23072564314325_1_alg».proof.Proof.Gen.Kernel.Skeleton
import proofs.«128364_j23072564314325_1_alg».proof.Proof.Gen.Kernel.Launch
import proofs.«128364_j23072564314325_1_alg».proof.Proof.Gen.Kernel.Points
import proofs.«128364_j23072564314325_1_alg».proof.Proof.Gen.Kernel.Frame
import proofs.«128364_j23072564314325_1_alg».proof.Proof.Gen.KernelIdeal
import proofs.«128364_j23072564314325_1_alg».proof.Proof.Gen.KernelIdeal.Skeleton
import proofs.«128364_j23072564314325_1_alg».proof.Proof.Gen.KernelIdeal.Launch
import proofs.«128364_j23072564314325_1_alg».proof.Proof.Gen.KernelIdeal.Points
import proofs.«128364_j23072564314325_1_alg».proof.Proof.Gen.KernelIdeal.Frame
import proofs.«128364_j23072564314325_1_alg».proof.Proof.Gen.ReferenceIdeal
import proofs.«128364_j23072564314325_1_alg».proof.Proof.Gen.Pre_finite_inputs
import proofs.«128364_j23072564314325_1_alg».proof.Proof.Gen.KernelIdeal.Value
import proofs.«128364_j23072564314325_1_alg».proof.Proof.Gen.ReferenceIdeal.Run
import proofs.«128364_j23072564314325_1_alg».proof.Proof.Gen.ReferenceIdeal.Read
import proofs.«128364_j23072564314325_1_alg».proof.Proof.Result
import proofs.«128364_j23072564314325_1_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree both programs end at the layer's specification of those arguments. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Spec.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
